-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S4096x4096 : Shape := ⟨2, ![4096, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x512x4096 .f32) (main_arg1 : FVec F S4096x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x512x4096 : Shape := ⟨3, ![8, 512, 4096]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .hbm, ⟨6, _⟩ => ⟨S8x512x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x4096_S4096x4096 : S8x512x4096.ShapeCasts S4096x4096
  bitsLt_bf16_f32 : FTy.bits .bf16 < FTy.bits .f32
  shapeCasts_S4096x4096_S8x512x4096 : S4096x4096.ShapeCasts S8x512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_call0_call0_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_call0_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S4096x4096 : Shape := ⟨2, ![4096, 4096]⟩
abbrev S256x1024 : Shape := ⟨2, ![256, 1024]⟩
abbrev S512x1024 : Shape := ⟨2, ![512, 1024]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8x512x4096, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x512x4096_S4096x4096 : S8x512x4096.ShapeCasts S4096x4096
  shapeCasts_S4096x4096_S8x512x4096 : S4096x4096.ShapeCasts S8x512x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .f32 = 32 ∨ (Rect.block (s := S4096x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x4096.size a
  hwx0_2 : ∀ i : grid0.Coords, EltTy.bits .f32 = 32 ∨ (Rect.block (s := S4096x4096) S256x512.size (cc0_transform_2 i) (hinb0_2 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.RowsProduct.lean ====
/-
  The specification both programs are measured against: y = x · wᵀ over the extended reals.

  For two 4096 × 4096 arrays `X` (the activations, one row per token) and `W` (the weight, one row per output
  feature), entry (r, c) of the result is the sum over the 4096 input features k of X[r, k] · W[c, k].
  The second fact is how the K-blocked program reaches it: the 4096 features cut into four consecutive chunks of 1024,
  the chunk sums added up — equal to the whole sum because extended-real addition is commutative and associative.
-/
import Idealize.ShloMosaic.Lib.ValueIdx
import proofs.«168643_g2000006501037958_pallasbulk_882_2_alg».proof.Proof.LibBlockSum

noncomputable section

open scoped BigOperators

namespace RowsProduct

open Idealize.ShloMosaic Idealize.ShloMosaic.ValueIdx

/-- The square shape of the flattened activations, the weight and the flattened result. -/
abbrev Sq : Shape := ⟨2, ![4096, 4096]⟩

/-- Entry (r, c) of x · wᵀ: the rows r of `X` and c of `W` multiplied feature by feature and summed. -/
def rowsProduct (X W : Sq.Idx → EReal) : Sq.Idx → EReal :=
  fun j => ∑ k : Fin 4096, X (ix2 (j 0) k) * W (ix2 (j 1) k)

/-- An array read at natural-number coordinates, zero outside the array: lets block arithmetic be written with
    plain naturals. -/
def at2 (X : Sq.Idx → EReal) (a b : ℕ) : EReal :=
  if h : a < 4096 ∧ b < 4096 then X (ix2 ⟨a, h.1⟩ ⟨b, h.2⟩) else 0

theorem at2_eq (X : Sq.Idx → EReal) (a b : ℕ) (ha : a < 4096) (hb : b < 4096) : at2 X a b = X (ix2 ⟨a, ha⟩ ⟨b, hb⟩) :=
  dif_pos ⟨ha, hb⟩

/-- The contribution of feature chunk `s` (features 1024·s … 1024·s + 1023) to entry (r, c). -/
def chunk (X W : Sq.Idx → EReal) (r c s : ℕ) : EReal :=
  ∑ x : Fin 1024, at2 X r (1024 * s + x.val) * at2 W c (1024 * s + x.val)

/-- The four chunk sums add up to the whole row product. -/
theorem sum_chunks (X W : Sq.Idx → EReal) (j : Sq.Idx) :
    ∑ s ∈ Finset.range 4, chunk X W (j 0).val (j 1).val s = rowsProduct X W j := by
  unfold rowsProduct chunk
  have h := BlockSum.sum_fin_mul (fun k => at2 X (j 0).val k * at2 W (j 1).val k) 4 1024
  rw [← h]
  refine Finset.sum_congr rfl fun k _ => ?_
  rw [at2_eq X _ _ (j 0).isLt k.isLt, at2_eq W _ _ (j 1).isLt k.isLt]
  rfl

end RowsProduct

end
-- ==== Proof.KernelValue.lean ====
/-
  What the one-shot kernel leaves in its result, over the extended reals.

  The kernel flattens x to 4096 × 4096, narrows both operands to bf16 (the identity on extended reals), and runs a
  4 × 4 grid: point (i, j) multiplies the row block i of x (1024 rows, all 4096 features) by the row block j of the
  weight (1024 rows, all features), rows against rows, into the zero accumulator, and writes the 1024 × 1024 block (i, j)
  of the result. So every block it writes is the block of ONE whole-array function, `rowsProduct` of the flattened x and
  the weight; the sixteen blocks tile the array; the final reshape to 8 × 512 × 4096 is applied to that array.
-/
import proofs.«168643_g2000006501037958_pallasbulk_882_2_alg».proof.Proof.Gen.KernelIdeal.Frame
import proofs.«168643_g2000006501037958_pallasbulk_882_2_alg».proof.Proof.LibMatmulRows
import proofs.«168643_g2000006501037958_pallasbulk_882_2_alg».proof.Proof.RowsProduct
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RowsValue

open Cert.KernelIdeal Cert.KernelIdeal.Gen RowsProduct

variable (m : (ℓ : Loc nD τ sig) → Buf (Elt Ideal) ℓ) (ρ : Dev nD → PrngReg)

theorem hz : (![0, 0] : Fin 2 → Nat) = fun _ => 0 := funext fun a => by fin_cases a <;> rfl

/-- The flattened activations: x reshaped to one row per token. -/
abbrev flatX (c : Dev nD) : Sq.Idx → EReal :=
  shapeCast S4096x4096 (m ((c : Thread nD τ).loc main_arg0)) shapeCasts_S8x512x4096_S4096x4096

/-- The flattened result: x · wᵀ of the flattened activations and the weight. -/
abbrev flatY (c : Dev nD) : Buf (Elt Ideal) ((c : Thread nD τ).loc main_call0_v1) :=
  rowsProduct (flatX m c) (m ((c : Thread nD τ).loc main_arg1))

/-- The body's block product at entry (p, q): row p of the x block against row q of the weight block. -/
theorem block_apply (x0 x1 : Vec Ideal S1024x4096 .bf16) (p q : Fin 1024) :
    k0_pay1 x0 x1 (ix2 p q) = ∑ k : Fin 4096, x0 (ix2 p k) * x1 (ix2 q k) := by
  unfold k0_pay1
  simp only [shapeCast_self]
  exact MatmulRows.matmul_zero_apply none x0 x1 p q

/-- The left operand the region finds: the flattened x, narrowed (no change over the extended reals). -/
theorem V_lhs (c : Dev nD) : (V m c main_call0_call0_v0 : S4096x4096.Idx → EReal) = flatX m c := by
  show StableHlo.after hostOps0 (fun b => m (c, b)) (Proc.devRef .tc main_call0_call0_v0) = _
  after_results
  rfl

/-- The right operand the region finds: the weight, narrowed likewise. -/
theorem V_rhs (c : Dev nD) : (V m c main_call0_call0_v1 : S4096x4096.Idx → EReal) = m ((c : Thread nD τ).loc main_arg1) := by
  show StableHlo.after hostOps0 (fun b => m (c, b)) (Proc.devRef .tc main_call0_call0_v1) = _
  after_results
  rfl

/-- Where the blocks sit: point t is (t / 4, t % 4); the x block follows the first coordinate, the weight block the second,
    both from feature 0. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

/-- What point t writes back is block t of the flattened result. -/
theorem flushed_eq (c : Dev nD) (t : Fin cfg0.N) :
    (dats m 0 c).flushed 2 t = ((cfg0.win 2).blk t).view.read (Elt Ideal) (flatY m c) := by
  show (cfg0.win 2).cut (grid0.coords t) ((dats m 0 c).after 2 t) = _
  rw [after0_2]
  unfold out0_2
  rw [View.canon_unit_zero hz]
  simp only [View.ld_unit_zero (S := S1024x4096) hz]
  obtain ⟨e0, e1, e2, e3, e4, e5⟩ := idx_facts t
  funext j
  obtain ⟨p, q, rfl⟩ : ∃ (p : Fin 1024) (q : Fin 1024), j = ix2 p q := ⟨j 0, j 1, eq_ix2 j⟩
  refine (block_apply (iblk m c 0 t) (iblk m c 1 t) p q).trans ?_
  show _ = rowsProduct (flatX m c) (m ((c : Thread nD τ).loc main_arg1)) (((cfg0.win 2).blk t).view.emb (ix2 p q))
  unfold rowsProduct
  refine Finset.sum_congr rfl fun k _ => ?_
  have hl : iblk m c 0 t (ix2 p k) = flatX m c (ix2 ((((cfg0.win 2).blk t).view.emb (ix2 p q)) 0) k) := by
    show V m c main_call0_call0_v0 (((cfg0.win 0).blk t).view.emb (ix2 p k)) = _
    rw [V_lhs]
    congr 1
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 4096 + 1 * k.val = k.val; omega
  have hr : iblk m c 1 t (ix2 q k) = m ((c : Thread nD τ).loc main_arg1) (ix2 ((((cfg0.win 2).blk t).view.emb (ix2 p q)) 1) k) := by
    show V m c main_call0_call0_v1 (((cfg0.win 1).blk t).view.emb (ix2 q k)) = _
    rw [V_rhs]
    congr 1
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 4096 + 1 * k.val = k.val; omega
  rw [hl, hr]

/-- An index is in point t's block iff each coordinate is in the block's range. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_call0_v1).slice (win0_2.rect t)).set ↔ _
  rw [View.set_slice_whole, Rect.mem_set_unit]
  exact Iff.rfl

/-- The sixteen blocks tile the result: entry (r, c) lies in the block of point 4 · (r / 1024) + c / 1024. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  let t : Fin cfg0.N := ⟨4 * ((i 0).val / 1024) + (i 1).val / 1024, by rw [hN]; omega⟩
  obtain ⟨e0, e1, e2, e3, e4, e5⟩ := idx_facts t
  have ht : t.val = 4 * ((i 0).val / 1024) + (i 1).val / 1024 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array of the region ends holding the flattened product. -/
theorem final (c : Dev nD) : (dats m 0 c).arrAt 2 cfg0.N = flatY m c :=
  (dats m 0 c).arrAt_eq_of_cover 2 (flatY m c) (fun t _ => flushed_eq m c t) cover

/-- The program's result: the flattened product reshaped to 8 × 512 × 4096. -/
abbrev result (c : Dev nD) : Buf (Elt Ideal) ((c : Thread nD τ).loc main_v0) :=
  shapeCast S8x512x4096 (flatY m c) shapeCasts_S4096x4096_S8x512x4096

/-- The reshape after the region reads the region's result array. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  show shapeCast S8x512x4096 (Pipeline.withArrays spec0 c (V0 m c) (fun w => (dats m 0 c).arrAt w cfg0.N) (Proc.devRef .tc (Pipeline.arrRef spec0 2))) _ = _
  rw [(Pipeline.withArrays_arr spec0 launch0.win.arr_inj c _ _ 2).trans (final m c)]

/-- The run, read: the result at the reshaped product, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowsValue

end
-- ==== Proof.ReferenceValue.lean ====
/-
  What the K-blocked program leaves in its result, over the extended reals.

  The reference flattens x to 4096 × 4096 and runs a 16 × 8 × 4 grid: point t = (i, j, s), with i = t / 32,
  j = (t / 4) % 8 and s = t % 4, multiplies rows 256·i … of x by rows 512·j … of the weight over the feature chunk
  1024·s … 1024·s + 1023 and adds the 256 × 512 block product into a scratch accumulator: the accumulator is set to
  zero at s = 0, and copied to the output block (i, j) at s = 3. Entry (p, q) of the accumulator after point t is
  therefore the sum of the chunk contributions 0 … s to entry (256·i + p, 512·j + q) — by induction on the point — and
  what is written back at s = 3 is the sum of all four chunks, the whole row product. The 128 output blocks tile the
  result, and the final reshape to 8 × 512 × 4096 is applied to it.
-/
import proofs.«168643_g2000006501037958_pallasbulk_882_2_alg».proof.Proof.Gen.ReferenceIdeal.Frame
import proofs.«168643_g2000006501037958_pallasbulk_882_2_alg».proof.Proof.LibMatmulRows
import proofs.«168643_g2000006501037958_pallasbulk_882_2_alg».proof.Proof.RowsProduct
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RowsValue

open Cert.ReferenceIdeal Cert.ReferenceIdeal.Gen RowsProduct

theorem hz : (![0, 0] : Fin 2 → Nat) = fun _ => 0 := funext fun a => by fin_cases a <;> rfl

/-! ## What each case of the body leaves, as values -/

section Cases

variable {F : FTy → Type} [FloatOps F]

/-- First chunk (s = 0): the accumulator is set to zero, read back, and the block product added. -/
theorem scratch_first (c : Dev nD) (i : grid0.Coords) (a3 : Memref sig .tc .vmem S256x1024 .f32) (h3 : a3.IsWhole) (a4 : Memref sig .tc .vmem S512x1024 .f32) (h4 : a4.IsWhole) (a5 : Memref sig .tc .vmem S256x512 .f32) (h5 : a5.IsWhole) (a6 : Memref sig .tc .vmem S256x512 .f32) (h6 : a6.IsWhole) (hc0 : cond0_0 i) (hc1 : ¬cond0_1 i)
    (x0 : Vec F S256x1024 .f32) (x1 : Vec F S512x1024 .f32) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x512) hz, View.readCov_unit_zero (S := S256x512) _ hz]
  simp only [View.readAt_eq_ld, h3.read_unread, h4.read_unread, View.ld_unit_zero (S := S256x1024) hz, View.ld_unit_zero (S := S512x1024) hz, View.ld_unit_zero (S := S256x512) hz]

/-- A middle chunk (s = 1, 2): the block product is added to what the accumulator held. -/
theorem scratch_middle (c : Dev nD) (i : grid0.Coords) (a3 : Memref sig .tc .vmem S256x1024 .f32) (h3 : a3.IsWhole) (a4 : Memref sig .tc .vmem S512x1024 .f32) (h4 : a4.IsWhole) (a5 : Memref sig .tc .vmem S256x512 .f32) (h5 : a5.IsWhole) (a6 : Memref sig .tc .vmem S256x512 .f32) (h6 : a6.IsWhole) (hc0 : ¬cond0_0 i) (hc1 : ¬cond0_1 i)
    (x0 : Vec F S256x1024 .f32) (x1 : Vec F S512x1024 .f32) (xs0 : Vec F S256x512 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S256x1024) hz, View.ld_unit_zero (S := S512x1024) hz, View.ld_unit_zero (S := S256x512) hz]

/-- The last chunk (s = 3): the same addition into the accumulator … -/
theorem scratch_last (c : Dev nD) (i : grid0.Coords) (a3 : Memref sig .tc .vmem S256x1024 .f32) (h3 : a3.IsWhole) (a4 : Memref sig .tc .vmem S512x1024 .f32) (h4 : a4.IsWhole) (a5 : Memref sig .tc .vmem S256x512 .f32) (h5 : a5.IsWhole) (a6 : Memref sig .tc .vmem S256x512 .f32) (h6 : a6.IsWhole) (hc0 : ¬cond0_0 i) (hc1 : cond0_1 i)
    (x0 : Vec F S256x1024 .f32) (x1 : Vec F S512x1024 .f32) (xs0 : Vec F S256x512 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S256x1024) hz, View.ld_unit_zero (S := S512x1024) hz, View.ld_unit_zero (S := S256x512) hz]

/-- … and the output block receives the accumulator as just updated. -/
theorem out_last (c : Dev nD) (i : grid0.Coords) (a3 : Memref sig .tc .vmem S256x1024 .f32) (h3 : a3.IsWhole) (a4 : Memref sig .tc .vmem S512x1024 .f32) (h4 : a4.IsWhole) (a5 : Memref sig .tc .vmem S256x512 .f32) (h5 : a5.IsWhole) (a6 : Memref sig .tc .vmem S256x512 .f32) (h6 : a6.IsWhole) (hc0 : ¬cond0_0 i) (hc1 : cond0_1 i)
    (x0 : Vec F S256x1024 .f32) (x1 : Vec F S512x1024 .f32) (xs0 : Vec F S256x512 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S256x1024) hz, View.ld_unit_zero (S := S512x1024) hz, View.ld_unit_zero (S := S256x512) hz, View.readCov_unit_zero (S := S256x512) _ hz]

end Cases

/-! ## The body's arithmetic at one entry, over the extended reals -/

/-- The accumulator's reset value is zero everywhere. -/
theorem reset_apply (y : S256x512.Idx) : k0_pay1 (F := Ideal) y = 0 := by
  unfold k0_pay1
  simp only [shapeCast_self]
  exact Ideal.ofBits_zero_f32

/-- One step at entry (p, q): what the accumulator held plus row p of the x block against row q of the weight block. -/
theorem step_apply (xs : Vec Ideal S256x512 .f32) (x0 : Vec Ideal S256x1024 .f32) (x1 : Vec Ideal S512x1024 .f32)
    (p : Fin 256) (q : Fin 512) :
    k0_pay2 xs x0 x1 (ix2 p q) = xs (ix2 p q) + ∑ k : Fin 1024, x0 (ix2 p k) * x1 (ix2 q k) := by
  unfold k0_pay2
  simp only [shapeCast_self]
  exact congrArg (xs (ix2 p q) + ·) (MatmulRows.matmul_zero_apply none x0 x1 p q)

/-! ## The blocks the points read -/

variable (m : (ℓ : Loc nD τ sig) → Buf (Elt Ideal) ℓ) (ρ : Dev nD → PrngReg)

/-- The flattened activations: x reshaped to one row per token. -/
abbrev flatX (c : Dev nD) : Sq.Idx → EReal :=
  shapeCast S4096x4096 (m ((c : Thread nD τ).loc main_arg0)) shapeCasts_S8x512x4096_S4096x4096

/-- The flattened result: x · wᵀ of the flattened activations and the weight. -/
abbrev flatY (c : Dev nD) : Buf (Elt Ideal) ((c : Thread nD τ).loc main_call0_v1) :=
  rowsProduct (flatX m c) (m ((c : Thread nD τ).loc main_arg1))

/-- The left operand the region finds: the flattened x. -/
theorem V_lhs (c : Dev nD) : (V m c main_call0_v0 : S4096x4096.Idx → EReal) = flatX m c := by
  show StableHlo.after hostOps0 (fun b => m (c, b)) (Proc.devRef .tc main_call0_v0) = _
  after_results
  rfl

/-- Where the blocks sit at point t = (t / 32, (t / 4) % 8, t % 4). -/
theorem idx_facts : ∀ t : Fin cfg0.N, win0_0.index t (0 : Fin 2) = t.val / 32 ∧ win0_0.index t (1 : Fin 2) = t.val % 4
    ∧ win0_1.index t (0 : Fin 2) = (t.val / 4) % 8 ∧ win0_1.index t (1 : Fin 2) = t.val % 4
    ∧ win0_2.index t (0 : Fin 2) = t.val / 32 ∧ win0_2.index t (1 : Fin 2) = (t.val / 4) % 8 :=
  (by decide +kernel : ∀ t : Fin grid0.N, _)

/-- The x block of point t, as a block of its literal shape. -/
abbrev xblk (c : Dev nD) (t : Fin cfg0.N) : Vec Ideal S256x1024 .f32 := iblk m c 0 t
/-- The weight block of point t. -/
abbrev wblk (c : Dev nD) (t : Fin cfg0.N) : Vec Ideal S512x1024 .f32 := iblk m c 1 t

/-- Entry (p, k) of the x block is x at row 256·i + p, feature 1024·s + k. -/
theorem xblk_apply (c : Dev nD) (t : Fin cfg0.N) (p : Fin 256) (k : Fin 1024) :
    xblk m c t (ix2 p k) = at2 (flatX m c) (256 * (t.val / 32) + p.val) (1024 * (t.val % 4) + k.val) := by
  obtain ⟨e0, e1, e2, e3, e4, e5⟩ := idx_facts t
  have hN : cfg0.N = 512 := N_0
  have ht : t.val < 512 := lt_of_lt_of_eq t.isLt hN
  rw [at2_eq _ _ _ (by omega) (by omega)]
  show V m c main_call0_v0 (((cfg0.win 0).blk t).view.emb (ix2 p k)) = _
  rw [V_lhs]
  congr 1
  funext a; apply Fin.ext
  match a with
  | ⟨0, _⟩ => show win0_0.index t (0 : Fin 2) * 256 + 1 * p.val = 256 * (t.val / 32) + p.val; omega
  | ⟨1, _⟩ => show win0_0.index t (1 : Fin 2) * 1024 + 1 * k.val = 1024 * (t.val % 4) + k.val; omega

/-- Entry (q, k) of the weight block is the weight at row 512·j + q, feature 1024·s + k. -/
theorem wblk_apply (c : Dev nD) (t : Fin cfg0.N) (q : Fin 512) (k : Fin 1024) :
    wblk m c t (ix2 q k) = at2 (m ((c : Thread nD τ).loc main_arg1)) (512 * ((t.val / 4) % 8) + q.val) (1024 * (t.val % 4) + k.val) := by
  obtain ⟨e0, e1, e2, e3, e4, e5⟩ := idx_facts t
  have hN : cfg0.N = 512 := N_0
  have ht : t.val < 512 := lt_of_lt_of_eq t.isLt hN
  rw [at2_eq _ _ _ (by omega) (by omega)]
  show V m c main_arg1 (((cfg0.win 1).blk t).view.emb (ix2 q k)) = _
  rw [V_main_arg1]
  congr 1
  funext a; apply Fin.ext
  match a with
  | ⟨0, _⟩ => show win0_1.index t (0 : Fin 2) * 512 + 1 * q.val = 512 * ((t.val / 4) % 8) + q.val; omega
  | ⟨1, _⟩ => show win0_1.index t (1 : Fin 2) * 1024 + 1 * k.val = 1024 * (t.val % 4) + k.val; omega

/-- The block product of point t at entry (p, q) is chunk s's contribution to entry (256·i + p, 512·j + q). -/
theorem point_product (c : Dev nD) (t : Fin cfg0.N) (p : Fin 256) (q : Fin 512) :
    ∑ k : Fin 1024, xblk m c t (ix2 p k) * wblk m c t (ix2 q k)
      = chunk (flatX m c) (m ((c : Thread nD τ).loc main_arg1)) (256 * (t.val / 32) + p.val) (512 * ((t.val / 4) % 8) + q.val) (t.val % 4) := by
  unfold chunk
  exact Finset.sum_congr rfl fun k _ => by rw [xblk_apply, wblk_apply]

/-! ## The accumulator after every point -/

/-- After point n the accumulator holds, at entry (p, q), the contributions of chunks 0 … n % 4. -/
theorem scratch_eq (c : Dev nD) : ∀ (n : ℕ) (h : n < cfg0.N) (p : Fin 256) (q : Fin 512),
    (outsAt0 m c n h).2 (ix2 p q)
      = ∑ s ∈ Finset.range (n % 4 + 1), chunk (flatX m c) (m ((c : Thread nD τ).loc main_arg1)) (256 * (n / 32) + p.val) (512 * ((n / 4) % 8) + q.val) s
  | 0, h, p, q => by
    rw [outsAt0_A m c ⟨0, h⟩ rfl (by show ¬(0 : ℕ) % 4 = 3; decide)]
    dsimp only
    refine (congrFun (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)) (ix2 p q)).trans ?_
    refine (step_apply _ (xblk m c ⟨0, h⟩) (wblk m c ⟨0, h⟩) p q).trans ?_
    rw [reset_apply, zero_add, point_product]
    simp
  | n + 1, h, p, q => by
    have hN : cfg0.N = 512 := N_0
    by_cases h0 : (n + 1) % 4 = 0
    · have h1 : ¬(n + 1) % 4 = 3 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)) (ix2 p q)).trans ?_
      refine (step_apply _ (xblk m c ⟨n + 1, h⟩) (wblk m c ⟨n + 1, h⟩) p q).trans ?_
      rw [reset_apply, zero_add, point_product]
      show chunk _ _ _ _ ((n + 1) % 4) = _
      rw [h0]
      simp
    · have ih := scratch_eq c n (Nat.lt_of_succ_lt h) p q
      have e32 : (n + 1) / 32 = n / 32 := by omega
      have e8 : (n + 1) / 4 % 8 = n / 4 % 8 := by omega
      have e4 : (n + 1) % 4 = n % 4 + 1 := by omega
      by_cases h1 : (n + 1) % 4 = 3
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2) (ix2 p q)).trans ?_
        refine (step_apply _ (xblk m c ⟨n + 1, h⟩) (wblk m c ⟨n + 1, h⟩) p q).trans ?_
        rw [ih, point_product]
        show _ + chunk _ _ (256 * ((n + 1) / 32) + p.val) (512 * ((n + 1) / 4 % 8) + q.val) ((n + 1) % 4) = _
        rw [e32, e8, e4, Finset.sum_range_succ _ (n % 4 + 1)]
      · rw [outsAt0_B m c ⟨n + 1, h⟩ h0 h1]
        dsimp only
        refine (congrFun (scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2) (ix2 p q)).trans ?_
        refine (step_apply _ (xblk m c ⟨n + 1, h⟩) (wblk m c ⟨n + 1, h⟩) p q).trans ?_
        rw [ih, point_product]
        show _ + chunk _ _ (256 * ((n + 1) / 32) + p.val) (512 * ((n + 1) / 4 % 8) + q.val) ((n + 1) % 4) = _
        rw [e32, e8, e4, Finset.sum_range_succ _ (n % 4 + 1)]

/-- At a last-chunk point the output block is the accumulator: all four chunks of entry (256·i + p, 512·j + q). -/
theorem out_eq (c : Dev nD) (t : Fin cfg0.N) (h3 : t.val % 4 = 3) (p : Fin 256) (q : Fin 512) :
    (outsAt0 m c t.val t.isLt).1 (ix2 p q)
      = ∑ s ∈ Finset.range 4, chunk (flatX m c) (m ((c : Thread nD τ).loc main_arg1)) (256 * (t.val / 32) + p.val) (512 * ((t.val / 4) % 8) + q.val) s := by
  have h0 : ¬t.val % 4 = 0 := by omega
  have e := scratch_eq m c t.val t.isLt p q
  rw [h3] at e
  rw [← e, outsAt0_C m c t h0 h3]
  dsimp only
  refine (congrFun (out_last (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2) (ix2 p q)).trans ?_
  exact (congrFun (scratch_last (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2) (ix2 p q)).symm

/-! ## The result array -/

/-- What a last-chunk point writes back is its block of the flattened result. -/
theorem flushed_eq (c : Dev nD) (t : Fin cfg0.N) (hf : (cfg0.win 2).flush t = true) :
    (dats m 0 c).flushed 2 t = ((cfg0.win 2).blk t).view.read (Elt Ideal) (flatY m c) := by
  have h3 : t.val % 4 = 3 := (flush0_2 t).mp hf
  obtain ⟨e0, e1, e2, e3, e4, e5⟩ := idx_facts t
  show (cfg0.win 2).cut (grid0.coords t) ((dats m 0 c).after 2 t) = _
  rw [after0_2]
  funext j
  obtain ⟨p, q, rfl⟩ : ∃ (p : Fin 256) (q : Fin 512), j = ix2 p q := ⟨j 0, j 1, eq_ix2 j⟩
  show (outsAt0 m c t.val t.isLt).1 (ix2 p q) = rowsProduct (flatX m c) (m ((c : Thread nD τ).loc main_arg1)) (((cfg0.win 2).blk t).view.emb (ix2 p q))
  rw [out_eq m c t h3, ← sum_chunks]
  have r0 : ((((cfg0.win 2).blk t).view.emb (ix2 p q)) 0).val = 256 * (t.val / 32) + p.val := by
    show win0_2.index t (0 : Fin 2) * 256 + 1 * p.val = _; omega
  have r1 : ((((cfg0.win 2).blk t).view.emb (ix2 p q)) 1).val = 512 * ((t.val / 4) % 8) + q.val := by
    show win0_2.index t (1 : Fin 2) * 512 + 1 * q.val = _; omega
  rw [r0, r1]

/-- An index is in point t's block iff each coordinate is in the block's range. -/
theorem mem_blk (t : Fin cfg0.N) (i : S4096x4096.Idx) :
    i ∈ ((cfg0.win 2).blk t).view.set ↔ ∀ a : Fin 2, win0_2.index t a * S256x512.size a ≤ (i a).val ∧ (i a).val < win0_2.index t a * S256x512.size a + S256x512.size a := by
  show i ∈ ((View.whole main_call0_v1).slice (win0_2.rect t)).set ↔ _
  rw [View.set_slice_whole, Rect.mem_set_unit]
  exact Iff.rfl

/-- The 128 output blocks tile the result: entry (r, c) lies in the block written at point
    32 · (r / 256) + 4 · (c / 512) + 3. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 512 := N_0
  let t : Fin cfg0.N := ⟨32 * ((i 0).val / 256) + 4 * ((i 1).val / 512) + 3, by rw [hN]; omega⟩
  obtain ⟨e0, e1, e2, e3, e4, e5⟩ := idx_facts t
  have ht : t.val = 32 * ((i 0).val / 256) + 4 * ((i 1).val / 512) + 3 := rfl
  refine ⟨t, (flush0_2 t).mpr (by omega), ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- The result array of the region ends holding the flattened product. -/
theorem final (c : Dev nD) : (dats m 0 c).arrAt 2 cfg0.N = flatY m c :=
  (dats m 0 c).arrAt_eq_of_cover 2 (flatY m c) (flushed_eq m c) cover

/-- The program's result: the flattened product reshaped to 8 × 512 × 4096. -/
abbrev result (c : Dev nD) : Buf (Elt Ideal) ((c : Thread nD τ).loc main_v0) :=
  shapeCast S8x512x4096 (flatY m c) shapeCasts_S4096x4096_S8x512x4096

/-- The reshape after the region reads the region's result array. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  show shapeCast S8x512x4096 (Pipeline.withArrays spec0 c (V0 m c) (fun w => (dats m 0 c).arrAt w cfg0.N) (Proc.devRef .tc (Pipeline.arrRef spec0 2))) _ = _
  rw [(Pipeline.withArrays_arr spec0 launch0.win.arr_inj c _ _ 2).trans (final m c)]

/-- The run, read: the result at the reshaped product, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c)))⟩)
    (run_main m ρ)

end Cert.ReferenceIdeal.RowsValue

end
-- ==== Proof.lean ====
/-
  y = x · wᵀ, computed two ways, is one function over the extended reals.

  The kernel flattens x (8 × 512 × 4096) to 4096 × 4096 and, on a 4 × 4 grid, multiplies a 1024-row block of x by a
  1024-row block of the weight over ALL 4096 input features at once, rows against rows, from a zero accumulator; its
  operands are narrowed to bf16 first, which changes nothing over the extended reals. The reference runs a 16 × 8 × 4
  grid whose last axis walks the features in four chunks of 1024, adding each chunk's 256 × 512 block product into a
  scratch accumulator that starts at zero and is copied out after the fourth chunk. Both then reshape the 4096 × 4096
  result back to 8 × 512 × 4096.

  Entry (r, c) of the kernel's flattened result is the sum over all k of x[r, k] · w[c, k] (`rowsProduct`); the
  reference's is the sum of the four chunk sums, in chunk order. Extended-real addition is commutative and associative
  with neutral element zero, so cutting the sum into consecutive chunks does not change it (`RowsProduct.sum_chunks`):
  no finiteness of the inputs is needed. Each program's blocks tile its result array, so each array IS `rowsProduct`
  of the flattened x and the weight, and the two final reshapes are the same operation on the same array.
  The three frames are the programs' runs with the results dropped; the idealization rewrote nothing.
-/
import proofs.«168643_g2000006501037958_pallasbulk_882_2_alg».proof.Defs
import proofs.«168643_g2000006501037958_pallasbulk_882_2_alg».proof.Proof.Gen.Kernel
import proofs.«168643_g2000006501037958_pallasbulk_882_2_alg».proof.Proof.Gen.Kernel.Skeleton
import proofs.«168643_g2000006501037958_pallasbulk_882_2_alg».proof.Proof.Gen.Kernel.Launch
import proofs.«168643_g2000006501037958_pallasbulk_882_2_alg».proof.Proof.Gen.Kernel.Points
import proofs.«168643_g2000006501037958_pallasbulk_882_2_alg».proof.Proof.Gen.Kernel.Frame
import proofs.«168643_g2000006501037958_pallasbulk_882_2_alg».proof.Proof.Gen.KernelIdeal
import proofs.«168643_g2000006501037958_pallasbulk_882_2_alg».proof.Proof.Gen.KernelIdeal.Skeleton
import proofs.«168643_g2000006501037958_pallasbulk_882_2_alg».proof.Proof.Gen.KernelIdeal.Launch
import proofs.«168643_g2000006501037958_pallasbulk_882_2_alg».proof.Proof.Gen.KernelIdeal.Points
import proofs.«168643_g2000006501037958_pallasbulk_882_2_alg».proof.Proof.Gen.KernelIdeal.Frame
import proofs.«168643_g2000006501037958_pallasbulk_882_2_alg».proof.Proof.Gen.ReferenceIdeal
import proofs.«168643_g2000006501037958_pallasbulk_882_2_alg».proof.Proof.Gen.ReferenceIdeal.Skeleton
import proofs.«168643_g2000006501037958_pallasbulk_882_2_alg».proof.Proof.Gen.ReferenceIdeal.Launch
import proofs.«168643_g2000006501037958_pallasbulk_882_2_alg».proof.Proof.Gen.ReferenceIdeal.Points
import proofs.«168643_g2000006501037958_pallasbulk_882_2_alg».proof.Proof.Gen.ReferenceIdeal.Frame
import proofs.«168643_g2000006501037958_pallasbulk_882_2_alg».proof.Proof.Gen.Pre_finite_inputs
import Idealize.ShloMosaic.Adequacy
import Idealize.ShloMosaic.Init
import proofs.«168643_g2000006501037958_pallasbulk_882_2_alg».proof.Proof.KernelValue
import proofs.«168643_g2000006501037958_pallasbulk_882_2_alg».proof.Proof.ReferenceValue

noncomputable section

namespace Cert.Proof

open Idealize.ShloMosaic Idealize.SL.Sem

/-- Both programs end with the reshaped row product of arguments that agree. -/
theorem algebraic : Cert.algebraic_KernelIdeal_ReferenceIdeal := by
  intro m ρ m' ρ' _ hagree
  refine ⟨fun c => Cert.KernelIdeal.RowsValue.result m c, Cert.KernelIdeal.RowsValue.run m ρ, ?_⟩
  refine (θ_run Cert.ReferenceIdeal.defs _ _).mono (fun _ h c => ⟨(h c).1.trans ?_, (h c).2⟩)
    (Cert.ReferenceIdeal.RowsValue.run m' ρ')
  show Cert.ReferenceIdeal.RowsValue.result m' c = Cert.KernelIdeal.RowsValue.result m c
  unfold Cert.ReferenceIdeal.RowsValue.result Cert.KernelIdeal.RowsValue.result
    Cert.ReferenceIdeal.RowsValue.flatY Cert.KernelIdeal.RowsValue.flatY
    Cert.ReferenceIdeal.RowsValue.flatX Cert.KernelIdeal.RowsValue.flatX
  rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
